-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S_ : Shape := ⟨0, ![]⟩

class Facts : Prop where
  bcast_S_S2x64x8192 : S_.BroadcastsInDim S2x64x8192 (![] : Fin 0 → Fin S2x64x8192.rank)
  reducesTo_S2x64x8192_S_d0_1_2 : S2x64x8192.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S64x8192 : S_.BroadcastsInDim S64x8192 (![] : Fin 0 → Fin S64x8192.rank)
  reducesTo_S64x8192_S_d0_1 : S64x8192.ReducesTo [0, 1] S_

variable [Facts]

def fn_part1 {F : FTy → Type} [FloatOps F] (main_v13 : IVec S_ 1) (main_v16 : IVec S64x8192 1) : IVec S_ 1 :=
  let main_c_5 : IVec S_ 1 := constantI S_ 1 1#1
  let main_v17 : IVec S_ 1 := (fun x v => Host.reduce IntOp.andi x v reducesTo_S64x8192_S_d0_1 h_S_) main_v16 main_c_5
  let main_v18 : IVec S_ 1 := andi main_v13 main_v17
  main_v18

def fn {F : FTy → Type} [FloatOps F] (main_arg0 : FVec F S2x64x8192 .f32) (main_arg1 : FVec F S8192x64 .f32) (main_arg2 : FVec F S64x64 .f32) (main_arg3 : FVec F S64x8192 .f32) : IVec S_ 1 :=
  let main_v0 : FVec F S2x64x8192 .f32 := Host.absf main_arg0
  let main_cst : FVec F S_ .f32 := constant S_ .f32 0x7F800000#32
  let main_v1 : FVec F S2x64x8192 .f32 := broadcastInDim S2x64x8192 ![] bcast_S_S2x64x8192 main_cst
  let main_v2 : IVec S2x64x8192 1 := cmpf .olt main_v0 main_v1
  let main_c : IVec S_ 1 := constantI S_ 1 1#1
  let main_v3 : IVec S_ 1 := (fun x v => Host.reduce IntOp.andi x v reducesTo_S2x64x8192_S_d0_1_2 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x8192 .f32 := Host.absf main_arg3
  let main_cst_4 : FVec F S_ .f32 := constant S_ .f32 0x7F800000#32
  let main_v15 : FVec F S64x8192 .f32 := broadcastInDim S64x8192 ![] bcast_S_S64x8192 main_cst_4
  let main_v16 : IVec S64x8192 1 := cmpf .olt main_v14 main_v15
  fn_part1 (F := F) main_v13 main_v16
-- ==== Kernel.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S128x8192 : Shape := ⟨2, ![128, 8192]⟩
abbrev S2048x64 : Shape := ⟨2, ![2048, 64]⟩
abbrev S128x2048 : Shape := ⟨2, ![128, 2048]⟩
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64x8192, .f32⟩
  | .hbm, ⟨1, _⟩ => ⟨S8192x64, .f32⟩
  | .hbm, ⟨2, _⟩ => ⟨S64x64, .f32⟩
  | .hbm, ⟨3, _⟩ => ⟨S64x8192, .f32⟩
  | .hbm, ⟨4, _⟩ => ⟨S128x8192, .f32⟩
  | .hbm, ⟨5, _⟩ => ⟨S128x8192, .f32⟩
  | .hbm, ⟨6, _⟩ => ⟨S2x64x8192, .f32⟩
  | .local _ .vmem, ⟨0, _⟩ => ⟨S128x8192, .f32⟩
  | .local _ .vmem, ⟨1, _⟩ => ⟨S64x8192, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S128x2048, .f32⟩
  | .local _ .vmem, ⟨6, _⟩ => ⟨S128x2048, .f32⟩
  | _, _ => ⟨S2x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x64x8192_S128x8192 : S2x64x8192.ShapeCasts S128x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  inb_S64x64_S64x64_0_0 : ∀ a, (![0, 0] : Fin 2 → Nat) a + S64x64.size a ≤ S64x64.size a
  h_S64x64 : 0 < S64x64.numel
  inb_S2048x64_S2048x64_0_0 : ∀ a, (![0, 0] : Fin 2 → Nat) a + S2048x64.size a ≤ S2048x64.size a
  h_S2048x64 : 0 < S2048x64.numel
  inb_S128x2048_S128x2048_0_0 : ∀ a, (![0, 0] : Fin 2 → Nat) a + S128x2048.size a ≤ S128x2048.size a
  h_S128x2048 : 0 < S128x2048.numel
  shapeCasts_S128x8192_S2x64x8192 : S128x8192.ShapeCasts S2x64x8192
  dot_S128x8192_S64x8192_S128x64_1_1_0_0_n_n_wf : DotDims.WF S128x8192 S64x8192 S128x64 [1] [1] [0] [0] [] []
  dot_S128x64_S64x64_S128x64_1_1_0_0_n_n_wf : DotDims.WF S128x64 S64x64 S128x64 [1] [1] [0] [0] [] []
  dot_S128x64_S2048x64_S128x2048_1_1_0_0_n_n_wf : DotDims.WF S128x64 S2048x64 S128x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x8192.size a
  hwx0_0 : ∀ i : grid0.Coords, EltTy.bits .f32 = 32 ∨ (Rect.block (s := S128x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x8192.size a
  hwx0_4 : ∀ i : grid0.Coords, EltTy.bits .f32 = 32 ∨ (Rect.block (s := S128x8192) S128x2048.size (cc0_transform_4 i) (hinb0_4 i)).WholeWords (EltTy.packing .f32)

variable [Facts₀]

def dot_S128x8192_S64x8192_S128x64_1_1_0_0_n_n : DotDims S128x8192 S64x8192 S128x64 where
  lhsContracting := [1]
  rhsContracting := [1]
  lhsNonContracting := [0]
  rhsNonContracting := [0]
  lhsBatch := []
  rhsBatch := []
  wf := dot_S128x8192_S64x8192_S128x64_1_1_0_0_n_n_wf
def dot_S128x64_S64x64_S128x64_1_1_0_0_n_n : DotDims S128x64 S64x64 S128x64 where
  lhsContracting := [1]
  rhsContracting := [1]
  lhsNonContracting := [0]
  rhsNonContracting := [0]
  lhsBatch := []
  rhsBatch := []
  wf := dot_S128x64_S64x64_S128x64_1_1_0_0_n_n_wf
def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf

abbrev win0_0 : Pipeline.Window sig grid0 :=
  Pipeline.Window.ofSpec (Memref.whole main_v0) S128x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x64x8192 : Shape := ⟨3, ![2, 64, 8192]⟩
abbrev S8192x64 : Shape := ⟨2, ![8192, 64]⟩
abbrev S64x64 : Shape := ⟨2, ![64, 64]⟩
abbrev S64x8192 : Shape := ⟨2, ![64, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2x64x8192, .f32⟩
  | .hbm, ⟨1, _⟩ => ⟨S8192x64, .f32⟩
  | .hbm, ⟨2, _⟩ => ⟨S64x64, .f32⟩
  | .hbm, ⟨3, _⟩ => ⟨S64x8192, .f32⟩
  | .hbm, ⟨4, _⟩ => ⟨S8192x64, .f32⟩
  | .hbm, ⟨5, _⟩ => ⟨S8192x8192, .f32⟩
  | .hbm, ⟨6, _⟩ => ⟨S2x64x8192, .f32⟩
  | _, _ => ⟨S2x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S2x64x8192_S8192x8192_S2x64x8192_2_1_01_0_n_n_wf : DotDims.WF S2x64x8192 S8192x8192 S2x64x8192 [2] [1] [0, 1] [0] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S2x64x8192_S8192x8192_S2x64x8192_2_1_01_0_n_n : DotDims S2x64x8192 S8192x8192 S2x64x8192 where
  lhsContracting := [2]
  rhsContracting := [1]
  lhsNonContracting := [0, 1]
  rhsNonContracting := [0]
  lhsBatch := []
  rhsBatch := []
  wf := dot_S2x64x8192_S8192x8192_S2x64x8192_2_1_01_0_n_n_wf

class Facts : Prop extends Facts₀ where

variable [Facts]
-- ==== Proof.BodyValue.lean ====
/-
  What the kernel body stores, at an index.

  At a grid point the body holds the whole merged `x` (128 rows of 8192 features), the whole `R` and `U`, and one
  block of 2048 rows of `C`.  It forms three matrix products, each into a zero accumulator and each contracting
  the LAST axis of both operands (so the right operand is used transposed):

    t1(r, k) = Σ_m x(r, m) · R(k, m),   t2(r, j) = Σ_k t1(r, k) · U(j, k),   out(r, q) = Σ_j t2(r, j) · Cblk(q, j),

  and stores `out`.  The narrowing of each operand to a 16-bit format in front of a product is the identity on
  ideal values, and a reshape to the same shape changes nothing.  So the stored value at (r, q) is

    Σ_j (Σ_k (Σ_m x(r, m) · R(k, m)) · U(j, k)) · Cblk(q, j).
-/
import proofs.«140608_j34325378629967_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-! ## First product: merged `x` against `R`, over the 8192 features -/

theorem lhs_xR_0 (i : S128x64.Idx) (q : dot_S128x8192_S64x8192_S128x64_1_1_0_0_n_n.contr.Idx) :
    (dot_S128x8192_S64x8192_S128x64_1_1_0_0_n_n.lhsIdx i q 0).val = (i 0).val := by
  unfold DotDims.lhsIdx
  rw [dif_neg (show ¬(0 : Fin S128x8192.rank) ∈ dot_S128x8192_S64x8192_S128x64_1_1_0_0_n_n.lhsBatch by decide), dif_pos (show (0 : Fin S128x8192.rank) ∈ dot_S128x8192_S64x8192_S128x64_1_1_0_0_n_n.lhsNonContracting by decide)]
  rfl
theorem lhs_xR_1 (i : S128x64.Idx) (q : dot_S128x8192_S64x8192_S128x64_1_1_0_0_n_n.contr.Idx) :
    (dot_S128x8192_S64x8192_S128x64_1_1_0_0_n_n.lhsIdx i q 1).val = (q ⟨0, by decide⟩).val :=
  dot_S128x8192_S64x8192_S128x64_1_1_0_0_n_n.lhsIdx_val_of_single rfl i q
theorem rhs_xR_0 (i : S128x64.Idx) (q : dot_S128x8192_S64x8192_S128x64_1_1_0_0_n_n.contr.Idx) :
    (dot_S128x8192_S64x8192_S128x64_1_1_0_0_n_n.rhsIdx i q 0).val = (i 1).val := by
  unfold DotDims.rhsIdx
  rw [dif_neg (show ¬(0 : Fin S64x8192.rank) ∈ dot_S128x8192_S64x8192_S128x64_1_1_0_0_n_n.rhsBatch by decide), dif_pos (show (0 : Fin S64x8192.rank) ∈ dot_S128x8192_S64x8192_S128x64_1_1_0_0_n_n.rhsNonContracting by decide)]
  rfl
theorem rhs_xR_1 (i : S128x64.Idx) (q : dot_S128x8192_S64x8192_S128x64_1_1_0_0_n_n.contr.Idx) :
    (dot_S128x8192_S64x8192_S128x64_1_1_0_0_n_n.rhsIdx i q 1).val = (q ⟨0, by decide⟩).val :=
  dot_S128x8192_S64x8192_S128x64_1_1_0_0_n_n.rhsIdx_val_of_single rfl i q

/-- Entry (r, k) of the first product is the sum over the features of row r of the left operand times row k of the right. -/
theorem product_xR_apply (A : FVec Ideal S128x8192 .bf16) (B : FVec Ideal S64x8192 .bf16) (r : Fin 128) (k : Fin 64) :
    matmul (F := Ideal) dot_S128x8192_S64x8192_S128x64_1_1_0_0_n_n none A B (constant S128x64 .f32 0x00000000#32) (ix2 r k)
      = ∑ m : Fin 8192, A (ix2 r m) * B (ix2 k m) := by
  simp only [matmul]
  rw [Ideal.matmul_constant_zero_apply, ← Equiv.sum_comp (contrEquiv1 dot_S128x8192_S64x8192_S128x64_1_1_0_0_n_n 8192 rfl rfl).symm]
  refine Finset.sum_congr rfl fun m _ => ?_
  have hk := contrEquiv1_symm_val dot_S128x8192_S64x8192_S128x64_1_1_0_0_n_n 8192 rfl rfl m
  have el : dot_S128x8192_S64x8192_S128x64_1_1_0_0_n_n.lhsIdx (ix2 r k) ((contrEquiv1 dot_S128x8192_S64x8192_S128x64_1_1_0_0_n_n 8192 rfl rfl).symm m) = ix2 r m := funext fun a => Fin.ext (by
    match a with
    | ⟨0, _⟩ => exact lhs_xR_0 _ _
    | ⟨1, _⟩ => exact (lhs_xR_1 _ _).trans hk)
  have er : dot_S128x8192_S64x8192_S128x64_1_1_0_0_n_n.rhsIdx (ix2 r k) ((contrEquiv1 dot_S128x8192_S64x8192_S128x64_1_1_0_0_n_n 8192 rfl rfl).symm m) = ix2 k m := funext fun a => Fin.ext (by
    match a with
    | ⟨0, _⟩ => exact rhs_xR_0 _ _
    | ⟨1, _⟩ => exact (rhs_xR_1 _ _).trans hk)
  rw [el, er]

/-! ## Second product: the first against `U`, over the 64 rank indices `k` -/

theorem lhs_tU_0 (i : S128x64.Idx) (q : dot_S128x64_S64x64_S128x64_1_1_0_0_n_n.contr.Idx) :
    (dot_S128x64_S64x64_S128x64_1_1_0_0_n_n.lhsIdx i q 0).val = (i 0).val := by
  unfold DotDims.lhsIdx
  rw [dif_neg (show ¬(0 : Fin S128x64.rank) ∈ dot_S128x64_S64x64_S128x64_1_1_0_0_n_n.lhsBatch by decide), dif_pos (show (0 : Fin S128x64.rank) ∈ dot_S128x64_S64x64_S128x64_1_1_0_0_n_n.lhsNonContracting by decide)]
  rfl
theorem lhs_tU_1 (i : S128x64.Idx) (q : dot_S128x64_S64x64_S128x64_1_1_0_0_n_n.contr.Idx) :
    (dot_S128x64_S64x64_S128x64_1_1_0_0_n_n.lhsIdx i q 1).val = (q ⟨0, by decide⟩).val :=
  dot_S128x64_S64x64_S128x64_1_1_0_0_n_n.lhsIdx_val_of_single rfl i q
theorem rhs_tU_0 (i : S128x64.Idx) (q : dot_S128x64_S64x64_S128x64_1_1_0_0_n_n.contr.Idx) :
    (dot_S128x64_S64x64_S128x64_1_1_0_0_n_n.rhsIdx i q 0).val = (i 1).val := by
  unfold DotDims.rhsIdx
  rw [dif_neg (show ¬(0 : Fin S64x64.rank) ∈ dot_S128x64_S64x64_S128x64_1_1_0_0_n_n.rhsBatch by decide), dif_pos (show (0 : Fin S64x64.rank) ∈ dot_S128x64_S64x64_S128x64_1_1_0_0_n_n.rhsNonContracting by decide)]
  rfl
theorem rhs_tU_1 (i : S128x64.Idx) (q : dot_S128x64_S64x64_S128x64_1_1_0_0_n_n.contr.Idx) :
    (dot_S128x64_S64x64_S128x64_1_1_0_0_n_n.rhsIdx i q 1).val = (q ⟨0, by decide⟩).val :=
  dot_S128x64_S64x64_S128x64_1_1_0_0_n_n.rhsIdx_val_of_single rfl i q

/-- Entry (r, j) of the second product is the sum over `k` of row r of the left operand times row j of the right. -/
theorem product_tU_apply (A : FVec Ideal S128x64 .bf16) (B : FVec Ideal S64x64 .bf16) (r : Fin 128) (j : Fin 64) :
    matmul (F := Ideal) dot_S128x64_S64x64_S128x64_1_1_0_0_n_n none A B (constant S128x64 .f32 0x00000000#32) (ix2 r j)
      = ∑ k : Fin 64, A (ix2 r k) * B (ix2 j k) := by
  simp only [matmul]
  rw [Ideal.matmul_constant_zero_apply, ← Equiv.sum_comp (contrEquiv1 dot_S128x64_S64x64_S128x64_1_1_0_0_n_n 64 rfl rfl).symm]
  refine Finset.sum_congr rfl fun k _ => ?_
  have hk := contrEquiv1_symm_val dot_S128x64_S64x64_S128x64_1_1_0_0_n_n 64 rfl rfl k
  have el : dot_S128x64_S64x64_S128x64_1_1_0_0_n_n.lhsIdx (ix2 r j) ((contrEquiv1 dot_S128x64_S64x64_S128x64_1_1_0_0_n_n 64 rfl rfl).symm k) = ix2 r k := funext fun a => Fin.ext (by
    match a with
    | ⟨0, _⟩ => exact lhs_tU_0 _ _
    | ⟨1, _⟩ => exact (lhs_tU_1 _ _).trans hk)
  have er : dot_S128x64_S64x64_S128x64_1_1_0_0_n_n.rhsIdx (ix2 r j) ((contrEquiv1 dot_S128x64_S64x64_S128x64_1_1_0_0_n_n 64 rfl rfl).symm k) = ix2 j k := funext fun a => Fin.ext (by
    match a with
    | ⟨0, _⟩ => exact rhs_tU_0 _ _
    | ⟨1, _⟩ => exact (rhs_tU_1 _ _).trans hk)
  rw [el, er]

/-! ## Third product: the second against a block of `C`, over the 64 rank indices `j` -/

theorem lhs_tC_0 (i : S128x2048.Idx) (q : dot_S128x64_S2048x64_S128x2048_1_1_0_0_n_n.contr.Idx) :
    (dot_S128x64_S2048x64_S128x2048_1_1_0_0_n_n.lhsIdx i q 0).val = (i 0).val := by
  unfold DotDims.lhsIdx
  rw [dif_neg (show ¬(0 : Fin S128x64.rank) ∈ dot_S128x64_S2048x64_S128x2048_1_1_0_0_n_n.lhsBatch by decide), dif_pos (show (0 : Fin S128x64.rank) ∈ dot_S128x64_S2048x64_S128x2048_1_1_0_0_n_n.lhsNonContracting by decide)]
  rfl
theorem lhs_tC_1 (i : S128x2048.Idx) (q : dot_S128x64_S2048x64_S128x2048_1_1_0_0_n_n.contr.Idx) :
    (dot_S128x64_S2048x64_S128x2048_1_1_0_0_n_n.lhsIdx i q 1).val = (q ⟨0, by decide⟩).val :=
  dot_S128x64_S2048x64_S128x2048_1_1_0_0_n_n.lhsIdx_val_of_single rfl i q
theorem rhs_tC_0 (i : S128x2048.Idx) (q : dot_S128x64_S2048x64_S128x2048_1_1_0_0_n_n.contr.Idx) :
    (dot_S128x64_S2048x64_S128x2048_1_1_0_0_n_n.rhsIdx i q 0).val = (i 1).val := by
  unfold DotDims.rhsIdx
  rw [dif_neg (show ¬(0 : Fin S2048x64.rank) ∈ dot_S128x64_S2048x64_S128x2048_1_1_0_0_n_n.rhsBatch by decide), dif_pos (show (0 : Fin S2048x64.rank) ∈ dot_S128x64_S2048x64_S128x2048_1_1_0_0_n_n.rhsNonContracting by decide)]
  rfl
theorem rhs_tC_1 (i : S128x2048.Idx) (q : dot_S128x64_S2048x64_S128x2048_1_1_0_0_n_n.contr.Idx) :
    (dot_S128x64_S2048x64_S128x2048_1_1_0_0_n_n.rhsIdx i q 1).val = (q ⟨0, by decide⟩).val :=
  dot_S128x64_S2048x64_S128x2048_1_1_0_0_n_n.rhsIdx_val_of_single rfl i q

/-- Entry (r, q) of the third product is the sum over `j` of row r of the left operand times row q of the right. -/
theorem product_tC_apply (A : FVec Ideal S128x64 .bf16) (B : FVec Ideal S2048x64 .bf16) (r : Fin 128) (q : Fin 2048) :
    matmul (F := Ideal) dot_S128x64_S2048x64_S128x2048_1_1_0_0_n_n none A B (constant S128x2048 .f32 0x00000000#32) (ix2 r q)
      = ∑ j : Fin 64, A (ix2 r j) * B (ix2 q j) := by
  simp only [matmul]
  rw [Ideal.matmul_constant_zero_apply, ← Equiv.sum_comp (contrEquiv1 dot_S128x64_S2048x64_S128x2048_1_1_0_0_n_n 64 rfl rfl).symm]
  refine Finset.sum_congr rfl fun j _ => ?_
  have hk := contrEquiv1_symm_val dot_S128x64_S2048x64_S128x2048_1_1_0_0_n_n 64 rfl rfl j
  have el : dot_S128x64_S2048x64_S128x2048_1_1_0_0_n_n.lhsIdx (ix2 r q) ((contrEquiv1 dot_S128x64_S2048x64_S128x2048_1_1_0_0_n_n 64 rfl rfl).symm j) = ix2 r j := funext fun a => Fin.ext (by
    match a with
    | ⟨0, _⟩ => exact lhs_tC_0 _ _
    | ⟨1, _⟩ => exact (lhs_tC_1 _ _).trans hk)
  have er : dot_S128x64_S2048x64_S128x2048_1_1_0_0_n_n.rhsIdx (ix2 r q) ((contrEquiv1 dot_S128x64_S2048x64_S128x2048_1_1_0_0_n_n 64 rfl rfl).symm j) = ix2 q j := funext fun a => Fin.ext (by
    match a with
    | ⟨0, _⟩ => exact rhs_tC_0 _ _
    | ⟨1, _⟩ => exact (rhs_tC_1 _ _).trans hk)
  rw [el, er]

/-! ## The stored value -/

/-- The body's stored value at (r, q): the three products chained, the narrowings and the same-shape reshape dropped. -/
theorem stored_apply (x0 : Vec Ideal S128x8192 .f32) (x1 : Vec Ideal S64x8192 .f32) (x2 : Vec Ideal S64x64 .f32) (x3 : Vec Ideal S2048x64 .f32)
    (r : Fin 128) (q : Fin 2048) :
    k0_pay1 (F := Ideal) x0 x1 x2 x3 (ix2 r q)
      = ∑ j : Fin 64, (∑ k : Fin 64, (∑ m : Fin 8192, x0 (ix2 r m) * x1 (ix2 k m)) * x2 (ix2 j k)) * x3 (ix2 q j) := by
  unfold k0_pay1
  rw [product_tC_apply]
  refine Finset.sum_congr rfl fun j _ => ?_
  rw [truncf_apply, truncf_apply, product_tU_apply]
  refine congrArg (· * x3 (ix2 q j)) ?_
  refine Finset.sum_congr rfl fun k _ => ?_
  rw [truncf_apply, truncf_apply, product_xR_apply]
  refine congrArg (· * x2 (ix2 j k)) ?_
  refine Finset.sum_congr rfl fun m _ => ?_
  rw [truncf_apply, truncf_apply, shapeCast_self]

end Cert.KernelIdeal.Body

end
-- ==== Proof.Regroup.lean ====
/-
  Three contractions in a row, regrouped.

  For a row `x` (indexed by `m`), a matrix `R` (`k, m`), a matrix `U` (`j, k`) and a row `C` (`j`),

    Σ_j (Σ_k (Σ_m x m · R k m) · U j k) · C j   =   Σ_m x m · (Σ_k (Σ_j C j · U j k) · R k m).

  The left side contracts `x` with `R` first, then with `U`, then with `C`: every intermediate is a short
  row.  The right side first builds the row `Σ_k (Σ_j C j · U j k) · R k m` of the product `C · U · R` and contracts
  `x` with it last.  Both are the triple sum `Σ_{m,k,j} x m · R k m · U j k · C j`; the equality is distributivity
  of the product over the sums and a change of the order of summation.

  Distributivity fails on the extended reals at the infinities, so the law is proved over the reals and
  carried to extended-real entries that are (coercions of) real numbers.
-/
import Mathlib.Data.EReal.Basic
import Mathlib.Algebra.BigOperators.Ring.Finset
import Mathlib.Algebra.BigOperators.Group.Finset.Sigma
import Mathlib.Tactic.Ring

namespace Cert.Regroup

open Finset

/-- The coercion of the reals into the extended reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The regrouping over the reals: both sides are the triple sum of `x m · R k m · U j k · C j`. -/
theorem regroup_real {M K J : Type*} [Fintype M] [Fintype K] [Fintype J]
    (x : M → ℝ) (R : K → M → ℝ) (U : J → K → ℝ) (C : J → ℝ) :
    ∑ j, (∑ k, (∑ m, x m * R k m) * U j k) * C j
      = ∑ m, x m * ∑ k, (∑ j, C j * U j k) * R k m := by
  have hL : ∀ j, (∑ k, (∑ m, x m * R k m) * U j k) * C j = ∑ k, ∑ m, x m * R k m * U j k * C j := by
    intro j
    rw [Finset.sum_mul]
    refine Finset.sum_congr rfl fun k _ => ?_
    rw [Finset.sum_mul, Finset.sum_mul]
  have hR : ∀ m, x m * ∑ k, (∑ j, C j * U j k) * R k m = ∑ k, ∑ j, x m * R k m * U j k * C j := by
    intro m
    rw [Finset.mul_sum]
    refine Finset.sum_congr rfl fun k _ => ?_
    rw [Finset.sum_mul, Finset.mul_sum]
    refine Finset.sum_congr rfl fun j _ => ?_
    ring
  rw [Finset.sum_congr rfl fun j _ => hL j, Finset.sum_congr rfl fun m _ => hR m]
  -- Σ_j Σ_k Σ_m  →  Σ_j Σ_m Σ_k  →  Σ_m Σ_j Σ_k  →  Σ_m Σ_k Σ_j
  rw [Finset.sum_congr rfl fun j _ => Finset.sum_comm, Finset.sum_comm]
  exact Finset.sum_congr rfl fun m _ => Finset.sum_comm

/-- The regrouping for extended-real entries each of which is a real number. -/
theorem regroup_ereal {M K J : Type*} [Fintype M] [Fintype K] [Fintype J]
    (x : M → EReal) (R : K → M → EReal) (U : J → K → EReal) (C : J → EReal)
    (hx : ∀ m, ∃ r : ℝ, x m = (r : EReal)) (hR : ∀ k m, ∃ r : ℝ, R k m = (r : EReal))
    (hU : ∀ j k, ∃ r : ℝ, U j k = (r : EReal)) (hC : ∀ j, ∃ r : ℝ, C j = (r : EReal)) :
    ∑ j, (∑ k, (∑ m, x m * R k m) * U j k) * C j
      = ∑ m, x m * ∑ k, (∑ j, C j * U j k) * R k m := by
  choose x' hx using hx
  choose R' hR using hR
  choose U' hU using hU
  choose C' hC using hC
  simp only [hx, hR, hU, hC, ← EReal.coe_mul, ← coe_sum]
  exact congrArg _ (regroup_real x' R' U' C')

end Cert.Regroup
-- ==== Proof.Spec.lean ====
/-
  The result as a function of the four argument arrays, in the two groupings the two programs use.

  Arrays: `x` of shape [2, 64, 8192] (batch, position, feature `m`), `C` of shape [8192, 64] (output feature `n`,
  rank index `j`), `U` of shape [64, 64] (`j`, `k`), `R` of shape [64, 8192] (`k`, `m`).

  * `chained`: on `x` with batch and position merged into one row index `r = 64·b + s` (shape [128, 8192]),
    entry `(r, n)` is  Σ_j (Σ_k (Σ_m X(r, m) · R(k, m)) · U(j, k)) · C(n, j):  contract with `R`, then `U`, then `C`.
  * `materialised`: entry `(b, s, n)` is  Σ_m x(b, s, m) · W(n, m)  with  W(n, m) = Σ_k (Σ_j C(n, j) · U(j, k)) · R(k, m),
    the dense product `C · U · R` built first.

  `merged_chained_eq_materialised`: splitting the merged row index back into (b, s), the first is the second
  whenever every entry of the four arrays is a real number (the regrouping law of `Cert.Regroup`).
-/
import proofs.«140608_j34325378629967_1_alg».proof.Proof.Regroup
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- [2, 64, 8192]: `x` and the result. -/
abbrev Sbsm : Shape := ⟨3, ![2, 64, 8192]⟩
/-- [128, 8192]: the same with batch and position merged. -/
abbrev Srm : Shape := ⟨2, ![128, 8192]⟩
/-- [8192, 64]: `C`. -/
abbrev Snj : Shape := ⟨2, ![8192, 64]⟩
/-- [64, 64]: `U`. -/
abbrev Sjk : Shape := ⟨2, ![64, 64]⟩
/-- [64, 8192]: `R`. -/
abbrev Skm : Shape := ⟨2, ![64, 8192]⟩

/-- Contract the merged rows of `X` with `R` over `m`, the result with `U` over `k`, the result with `C` over `j`. -/
def chained (X : Srm.Idx → EReal) (R : Skm.Idx → EReal) (U : Sjk.Idx → EReal) (C : Snj.Idx → EReal) : Srm.Idx → EReal :=
  fun i => ∑ j : Fin 64, (∑ k : Fin 64, (∑ m : Fin 8192, X (ix2 (i 0) m) * R (ix2 k m)) * U (ix2 j k)) * C (ix2 (i 1) j)

/-- Contract `x` over `m` with the dense matrix `C · U · R`. -/
def materialised (x : Sbsm.Idx → EReal) (C : Snj.Idx → EReal) (U : Sjk.Idx → EReal) (R : Skm.Idx → EReal) : Sbsm.Idx → EReal :=
  fun i => ∑ m : Fin 8192, x (ix3 (i 0) (i 1) m) * ∑ k : Fin 64, (∑ j : Fin 64, C (ix2 (i 2) j) * U (ix2 j k)) * R (ix2 k m)

/-- Row `64·b + s` of the merged array is row `(b, s)` of the original: the two have the same row-major position. -/
theorem merge_apply (x : Sbsm.Idx → EReal) (h : Sbsm.ShapeCasts Srm) (b : Fin 2) (s : Fin 64) (m : Fin 8192)
    (hr : b.val * 64 + s.val < 128) :
    shapeCast Srm x h (ix2 ⟨b.val * 64 + s.val, hr⟩ m) = x (ix3 b s m) :=
  shapeCast_apply x h _ _ (by rw [Shape.rowMajor_val_two, Shape.rowMajor_val_three]; rfl)

/-- And back: entry `(b, s, n)` of the split array is entry `(64·b + s, n)` of the merged one. -/
theorem split_apply (Y : Srm.Idx → EReal) (h : Srm.ShapeCasts Sbsm) (b : Fin 2) (s : Fin 64) (n : Fin 8192)
    (hr : b.val * 64 + s.val < 128) :
    shapeCast Sbsm Y h (ix3 b s n) = Y (ix2 ⟨b.val * 64 + s.val, hr⟩ n) :=
  shapeCast_apply Y h _ _ (by rw [Shape.rowMajor_val_two, Shape.rowMajor_val_three]; rfl)

/-- The chained form on merged rows, split back, is the materialised form, for arrays of real numbers. -/
theorem merged_chained_eq_materialised (x : Sbsm.Idx → EReal) (C : Snj.Idx → EReal) (U : Sjk.Idx → EReal) (R : Skm.Idx → EReal)
    (h1 : Sbsm.ShapeCasts Srm) (h2 : Srm.ShapeCasts Sbsm)
    (hx : ∀ i, ∃ r : ℝ, x i = (r : EReal)) (hC : ∀ i, ∃ r : ℝ, C i = (r : EReal))
    (hU : ∀ i, ∃ r : ℝ, U i = (r : EReal)) (hR : ∀ i, ∃ r : ℝ, R i = (r : EReal)) :
    shapeCast Sbsm (chained (shapeCast Srm x h1) R U C) h2 = materialised x C U R := by
  funext i
  obtain ⟨b, s, n, rfl⟩ : ∃ (b : Fin 2) (s : Fin 64) (n : Fin 8192), i = ix3 b s n := ⟨i 0, i 1, i 2, eq_ix3 i⟩
  have hr : b.val * 64 + s.val < 128 := by have := b.isLt; have := s.isLt; omega
  rw [split_apply _ h2 b s n hr]
  show ∑ j : Fin 64, (∑ k : Fin 64, (∑ m : Fin 8192, shapeCast Srm x h1 (ix2 ⟨b.val * 64 + s.val, hr⟩ m) * R (ix2 k m)) * U (ix2 j k)) * C (ix2 n j)
    = ∑ m : Fin 8192, x (ix3 b s m) * ∑ k : Fin 64, (∑ j : Fin 64, C (ix2 n j) * U (ix2 j k)) * R (ix2 k m)
  simp only [merge_apply x h1 b s _ hr]
  exact Cert.Regroup.regroup_ereal (fun m => x (ix3 b s m)) (fun k m => R (ix2 k m)) (fun j k => U (ix2 j k)) (fun j => C (ix2 n j))
    (fun m => hx _) (fun k m => hR _) (fun j k => hU _) (fun j => hC _)

end Cert.Spec

end
-- ==== Proof.BlockValue.lean ====
/-
  The stored block as a block of the whole result.

  The body's stored value depends on `C` only through the 2048 rows of `C` it was handed.  If those are rows
  `2048·b …  2048·b + 2047` of `C`, then the stored [128, 2048] block is columns `2048·b … 2048·b + 2047` of the
  [128, 8192] array `chained X R U C` of `Cert.Spec`: entry (r, q) of the block is entry (r, 2048·b + q) of the array.
-/
import proofs.«140608_j34325378629967_1_alg».proof.Proof.BodyValue
import proofs.«140608_j34325378629967_1_alg».proof.Proof.Spec

noncomputable section

namespace Cert.KernelIdeal.Body

open Cert.KernelIdeal Cert.KernelIdeal.Gen Idealize.ShloMosaic Idealize.ShloMosaic.ValueIdx

/-- Column (or row of `C`) `2048·b + q` of the full extent 8192, for a block number `b ≤ 3`. -/
def colAt (b : ℕ) (hb : b ≤ 3) (q : Fin 2048) : Fin 8192 := ⟨b * 2048 + q.val, by have := q.isLt; omega⟩

theorem colAt_val (b : ℕ) (hb : b ≤ 3) (q : Fin 2048) : (colAt b hb q).val = b * 2048 + q.val := rfl

/-- The stored block is block `b` of columns of the chained form. -/
theorem stored_is_block (X : Vec Ideal S128x8192 .f32) (Rr : Vec Ideal S64x8192 .f32) (Uu : Vec Ideal S64x64 .f32)
    (Cc : Vec Ideal S8192x64 .f32) (Cb : Vec Ideal S2048x64 .f32) (b : ℕ) (hb : b ≤ 3)
    (hCb : ∀ (q : Fin 2048) (j : Fin 64), Cb (ix2 q j) = Cc (ix2 (colAt b hb q) j)) :
    k0_pay1 (F := Ideal) X Rr Uu Cb = fun y : S128x2048.Idx => Cert.Spec.chained X Rr Uu Cc (ix2 (y 0) (colAt b hb (y 1))) := by
  funext y
  obtain ⟨r, q, rfl⟩ : ∃ (r : Fin 128) (q : Fin 2048), y = ix2 r q := ⟨y 0, y 1, eq_ix2 y⟩
  rw [stored_apply]
  show _ = ∑ j : Fin 64, (∑ k : Fin 64, (∑ mm : Fin 8192, X (ix2 r mm) * Rr (ix2 k mm)) * Uu (ix2 j k)) * Cc (ix2 (colAt b hb q) j)
  exact Finset.sum_congr rfl fun j _ => by rw [hCb]

end Cert.KernelIdeal.Body

end
-- ==== Proof.KernelValue.lean ====
/-
  What the kernel program leaves in its result.

  The program merges batch and position of `x` into rows (a reshape on the host), runs the region over a grid of 4
  points, and splits the rows of the region's [128, 8192] output back into batch and position (a second reshape).
  At point `t` the region hands the body the whole merged `x`, the whole `R` and `U`, and rows
  `2048·t … 2048·t + 2047` of `C`, and writes the body's [128, 2048] block back as columns `2048·t … 2048·t + 2047`
  of the output.  The four column blocks tile the output, so after the run the output array is the chained form
  `Cert.Spec.chained` of the merged `x`, `R`, `U`, `C` as a whole, and the program's result is that array split
  back into [2, 64, 8192].
-/
import proofs.«140608_j34325378629967_1_alg».proof.Proof.Gen.KernelIdeal.Frame
import proofs.«140608_j34325378629967_1_alg».proof.Proof.BlockValue
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 4 grid points: the three resident inputs always take block (0, 0); the block of
    `C` moves down its rows exactly as the output block moves along its columns; the output stays in row block 0
    and its column block number is at most 3. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (1 : Fin 2) ∧ win0_3.index t (1 : Fin 2) = 0
    ∧ win0_4.index t (0 : Fin 2) = 0 ∧ win0_4.index t (1 : Fin 2) ≤ 3 :=
  (by decide +kernel : ∀ t : Fin grid0.N, _)

/-- Every column block of the output is some point's. -/
theorem idx_onto : ∀ q : Fin 4, ∃ t : Fin cfg0.N, win0_4.index t = ![0, q.val] :=
  (by decide +kernel : ∀ q : Fin 4, ∃ t : Fin grid0.N, win0_4.index t = ![0, q.val])

theorem out_block_le (t : Fin cfg0.N) : win0_4.index t (1 : Fin 2) ≤ 3 := (idx_facts t).2.2.2.2.2.2.2.2.2

/-! ## The input blocks -/

/-- The block of merged `x` at any point is the whole array. -/
theorem blk_x (c : Dev nD) (t : Fin cfg0.N) : (iblk m c 0 t : Vec Ideal S128x8192 .f32) = V m c main_v0 := by
  obtain ⟨e0, e1, -⟩ := idx_facts t
  funext y
  show V m c main_v0 (((cfg0.win 0).blk t).view.emb y) = V m c main_v0 y
  have h : ((cfg0.win 0).blk t).view.emb y = y := by
    funext a; apply Fin.ext
    match a with
    | ⟨0, _⟩ => show win0_0.index t (0 : Fin 2) * 128 + 1 * (y 0).val = (y 0).val; omega
    | ⟨1, _⟩ => show win0_0.index t (1 : Fin 2) * 8192 + 1 * (y 1).val = (y 1).val; omega
  rw [h]

/-- The block of `R` at any point is the whole array. -/
theorem blk_R (c : Dev nD) (t : Fin cfg0.N) : (iblk m c 1 t : Vec Ideal S64x8192 .f32) = V m c main_arg3 := by
  obtain ⟨-, -, e0, e1, -⟩ := idx_facts t
  funext y
  show V m c main_arg3 (((cfg0.win 1).blk t).view.emb y) = V m c main_arg3 y
  have h : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 8192 + 1 * (y 1).val = (y 1).val; omega
  rw [h]

/-- The block of `U` at any point is the whole array. -/
theorem blk_U (c : Dev nD) (t : Fin cfg0.N) : (iblk m c 2 t : Vec Ideal S64x64 .f32) = V m c main_arg2 := by
  obtain ⟨-, -, -, -, e0, e1, -⟩ := idx_facts t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  rw [h]

/-- The block of `C` at point `t` is its rows `2048·b + q`, `b` the output's column block number at `t`. -/
theorem blk_C (c : Dev nD) (t : Fin cfg0.N) (q : Fin 2048) (j : Fin 64) :
    (iblk m c 3 t : Vec Ideal S2048x64 .f32) (ix2 q j)
      = (V m c main_arg1 : Vec Ideal S8192x64 .f32) (ix2 (Body.colAt (win0_4.index t (1 : Fin 2)) (out_block_le t) q) j) := by
  obtain ⟨-, -, -, -, -, -, e0, e1, -⟩ := idx_facts t
  show V m c main_arg1 (((cfg0.win 3).blk t).view.emb (ix2 q j)) = _
  have h : ((cfg0.win 3).blk t).view.emb (ix2 q j) = ix2 (Body.colAt (win0_4.index t (1 : Fin 2)) (out_block_le t) q) j := by
    funext a; apply Fin.ext
    match a with
    | ⟨0, _⟩ => show win0_3.index t (0 : Fin 2) * 2048 + 1 * q.val = win0_4.index t (1 : Fin 2) * 2048 + q.val; omega
    | ⟨1, _⟩ => show win0_3.index t (1 : Fin 2) * 64 + 1 * j.val = j.val; omega
  rw [h]

/-! ## What a point writes back -/

/-- The region's output array as one function of the arrays the region finds. -/
abbrev whole (c : Dev nD) : S128x8192.Idx → EReal :=
  Cert.Spec.chained (V m c main_v0) (V m c main_arg3) (V m c main_arg2) (V m c main_arg1)

/-- What point `t` writes back is block `t` of `whole`. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero hz]
  simp only [View.ld_unit_zero (S := S128x8192) hz, View.ld_unit_zero (S := S64x8192) hz, View.ld_unit_zero (S := S64x64) hz,
    View.ld_unit_zero (S := S2048x64) hz]
  rw [blk_x, blk_R, blk_U,
    Body.stored_is_block (V m c main_v0) (V m c main_arg3) (V m c main_arg2) (V m c main_arg1) (iblk m c 3 t)
      (win0_4.index t (1 : Fin 2)) (out_block_le t) (blk_C m c t)]
  obtain ⟨-, -, -, -, -, -, -, -, e0, e1⟩ := idx_facts t
  funext y
  show whole m c (ix2 (y 0) (Body.colAt (win0_4.index t (1 : Fin 2)) (out_block_le t) (y 1))) = whole m c (((cfg0.win 4).blk t).view.emb y)
  have h : ((cfg0.win 4).blk t).view.emb y = ix2 (y 0) (Body.colAt (win0_4.index t (1 : Fin 2)) (out_block_le t) (y 1)) := by
    funext a; apply Fin.ext
    match a with
    | ⟨0, _⟩ => show win0_4.index t (0 : Fin 2) * 128 + 1 * (y 0).val = (y 0).val; omega
    | ⟨1, _⟩ => show win0_4.index t (1 : Fin 2) * 2048 + 1 * (y 1).val = win0_4.index t (1 : Fin 2) * 2048 + (y 1).val; omega
  exact (congrArg (whole m c) h).symm

/-! ## The output array after the run -/

/-- An index of the output array is in point `t`'s block iff each coordinate is in the block's range on its axis. -/
theorem mem_blk (t : Fin cfg0.N) (i : S128x8192.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_v1).slice (win0_4.rect t)).set ↔ _
  rw [View.set_slice_whole, Rect.mem_set_unit]
  exact Iff.rfl

/-- Every index of the output is in some point's block: column `n` lies in column block `n / 2048`. -/
theorem cover (i : S128x8192.Idx) : ∃ t : Fin cfg0.N, (cfg0.win 4).flush t = true ∧ i ∈ ((cfg0.win 4).blk t).view.set := by
  have hi0 : (i 0).val < 128 := idx2_lt0 i
  have hi1 : (i 1).val < 8192 := idx2_lt1 i
  obtain ⟨t, ht⟩ := idx_onto ⟨(i 1).val / 2048, by omega⟩
  have q0 : win0_4.index t (0 : Fin 2) = 0 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

/-- The output array after the run is `whole`. -/
theorem final (c : Dev nD) : (dats m 0 c).arrAt 4 cfg0.N = whole m c :=
  (dats m 0 c).arrAt_eq_of_cover 4 (whole m c) (fun t _ => flushed_eq m c t) cover

/-! ## The host operations around the region -/

/-- Before the region: the merged `x` is the argument `x` reshaped to [128, 8192]. -/
theorem entry_x (c : Dev nD) :
    (V m c main_v0 : S128x8192.Idx → EReal) = shapeCast S128x8192 (m ((c : Thread nD τ).loc main_arg0)) shapeCasts_S2x64x8192_S128x8192 := by
  show StableHlo.after hostOps0 (fun b => m (c, b)) (Proc.devRef .tc main_v0) = _
  after_results
  rfl

/-- After the region: the result is the region's output array reshaped to [2, 64, 8192]. -/
theorem tail_result (c : Dev nD) :
    Pipeline.afterTail₀ cfgs (dats m) 0 (V0 m) [hostOps1] c main_v2
      = shapeCast S2x64x8192 ((dats m 0 c).arrAt 4 cfg0.N) shapeCasts_S128x8192_S2x64x8192 := by
  unfold Pipeline.afterTail₀
  show StableHlo.after hostOps1 _ (Proc.devRef .tc main_v2) = _
  after_results
  funext i
  have e := Pipeline.withArrays_arr spec0 launch0.win.arr_inj c (V0 m c) (fun w => (dats m 0 c).arrAt w (cfgs 0).N) 4
  exact congrArg (fun A : S128x8192.Idx → EReal => shapeCast S2x64x8192 A shapeCasts_S128x8192_S2x64x8192 i) e

/-! ## The run, read -/

/-- The program's result as a function of the argument arrays: merge the rows of `x`, take the chained form, split
    the rows back. -/
abbrev result (c : Dev nD) : S2x64x8192.Idx → EReal :=
  shapeCast S2x64x8192
    (Cert.Spec.chained (shapeCast S128x8192 (m ((c : Thread nD τ).loc main_arg0)) shapeCasts_S2x64x8192_S128x8192)
      (m ((c : Thread nD τ).loc main_arg3)) (m ((c : Thread nD τ).loc main_arg2)) (m ((c : Thread nD τ).loc main_arg1)))
    shapeCasts_S128x8192_S2x64x8192

/-- The region's output array in terms of the argument arrays as launched. -/
theorem final_args (c : Dev nD) :
    (dats m 0 c).arrAt 4 cfg0.N
      = Cert.Spec.chained (shapeCast S128x8192 (m ((c : Thread nD τ).loc main_arg0)) shapeCasts_S2x64x8192_S128x8192)
          (m ((c : Thread nD τ).loc main_arg3)) (m ((c : Thread nD τ).loc main_arg2)) (m ((c : Thread nD τ).loc main_arg1)) := by
  rw [final]
  unfold whole
  rw [entry_x, V_main_arg3, V_main_arg2, V_main_arg1]

/-- Every weakly fair execution of the program terminates with its result at `result` and its arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans
        ((tail_result m c).trans (congrArg (fun A : S128x8192.Idx → EReal => shapeCast S2x64x8192 A shapeCasts_S128x8192_S2x64x8192) (final_args m c))),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c)))⟩)
    (run_main m ρ)

end Cert.KernelIdeal.KValue

end
-- ==== Proof.RefValue.lean ====
/-
  The reference at an index.

  The reference multiplies `C` by `U`, the product by `R`, and contracts `x` with the resulting dense
  [8192, 8192] matrix over the feature axis.  Read at an index (b, s, n), each of the three products is a sum over its
  one contracted axis, so the result is `Σ_m x(b, s, m) · Σ_k (Σ_j C(n, j) · U(j, k)) · R(k, m)`: the
  `materialised` form of `Cert.Spec`.  Nothing here needs the entries to be finite: the three sums are read, not
  rearranged.
-/
import proofs.«140608_j34325378629967_1_alg».proof.Proof.Gen.ReferenceIdeal.Read
import proofs.«140608_j34325378629967_1_alg».proof.Proof.Spec

noncomputable section

namespace Cert.RefValue

open Cert.ReferenceIdeal Cert.ReferenceIdeal.Read Idealize.ShloMosaic Idealize.ShloMosaic.ValueIdx Cert.Spec

/-- The reference's composed term is the materialised form, index by index. -/
theorem reference_eq_materialised (x : (⟨S2x64x8192, .f32⟩ : BufTy).Contents (Elt Ideal)) (C : (⟨S8192x64, .f32⟩ : BufTy).Contents (Elt Ideal))
    (U : (⟨S64x64, .f32⟩ : BufTy).Contents (Elt Ideal)) (R : (⟨S64x8192, .f32⟩ : BufTy).Contents (Elt Ideal)) :
    val_main_v2 (F := Ideal) x C U R = materialised x C U R := by
  funext i
  rw [val_main_v2_apply]
  unfold materialised
  refine Finset.sum_congr rfl fun m _ => ?_
  -- the left factor: x at (b, s, m)
  have ex : lidx_main_v2 i m = ix3 (i 0) (i 1) m :=
    funext fun a => Fin.ext (by match a with | ⟨0, _⟩ => rfl | ⟨1, _⟩ => rfl | ⟨2, _⟩ => rfl)
  rw [ex, val_main_v1_apply]
  refine congrArg (x (ix3 (i 0) (i 1) m) * ·) ?_
  refine Finset.sum_congr rfl fun k _ => ?_
  -- the dense matrix at (n, m): R at (k, m), and C · U at (n, k)
  have eR : ridx_main_v1 (ridx_main_v2 i m) k = ix2 k m :=
    funext fun a => Fin.ext (by match a with | ⟨0, _⟩ => rfl | ⟨1, _⟩ => rfl)
  rw [eR, val_main_v0_apply]
  refine congrArg (· * R (ix2 k m)) ?_
  refine Finset.sum_congr rfl fun j _ => ?_
  have eC : lidx_main_v0 (lidx_main_v1 (ridx_main_v2 i m) k) j = ix2 (i 2) j :=
    funext fun a => Fin.ext (by match a with | ⟨0, _⟩ => rfl | ⟨1, _⟩ => rfl)
  have eU : ridx_main_v0 (lidx_main_v1 (ridx_main_v2 i m) k) j = ix2 j k :=
    funext fun a => Fin.ext (by match a with | ⟨0, _⟩ => rfl | ⟨1, _⟩ => rfl)
  rw [eC, eU]
  rfl

end Cert.RefValue

end
-- ==== Proof.Finite.lean ====
/-
  The precondition says every entry of the four arrays is a real number.

  The precondition is the conjunction, over the four argument arrays, of "every entry `a` has `|a| < +∞`" (an
  `and`-reduction of the entrywise comparison against the pattern of +∞).  On the extended reals `|a| = max a (−a)`,
  which is `+∞` at both infinities, so `|a| < +∞` holds exactly when `a` is (the coercion of) a real number.
-/
import proofs.«140608_j34325378629967_1_alg».proof.Pre_finite_inputs
import proofs.«140608_j34325378629967_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Cert.Pre_finite_inputs Idealize.ShloMosaic Idealize.ShloMosaic.ValueIdx

/-- The scalar shape has one index. -/
instance : Subsingleton S_.Idx := ⟨fun a b => funext fun d => d.elim0⟩

/-- An extended real whose absolute value is below the pattern of +∞ is a real number. -/
theorem real_of_abs_lt_inf (a : EReal) (h : Ideal.cmp .olt (max a (-a)) (Ideal.ofBits .f32 0x7F800000#32) = 1#1) :
    ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | coe r => exact ⟨r, rfl⟩
  | top => simp [Ideal.cmp] at h

/-- One array: if the `and` over all entries of `|a| < +∞` is 1, every entry is a real number. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt_inf (x i) (Host.reduce_andi_all _ _ hr hu ix0 e i)

/-- The precondition gives all four arrays real entries. -/
theorem real_of_pre (x : FVec Ideal S2x64x8192 .f32) (C : FVec Ideal S8192x64 .f32) (U : FVec Ideal S64x64 .f32) (R : FVec Ideal S64x8192 .f32)
    (h : fn (F := Ideal) x C U R = fun _ => 1#1) :
    (∀ i, ∃ r : ℝ, x i = (r : EReal)) ∧ (∀ i, ∃ r : ℝ, C i = (r : EReal))
      ∧ (∀ i, ∃ r : ℝ, U i = (r : EReal)) ∧ (∀ i, ∃ r : ℝ, R i = (r : EReal)) := by
  have h0 := congrFun h ix0
  dsimp only [fn, fn_part1] at h0
  change IntOp.andi (IntOp.andi (IntOp.andi _ _) _) _ = 1#1 at h0
  obtain ⟨h1, hR⟩ := IntOp.andi_eq_one.1 h0
  obtain ⟨h2, hU⟩ := IntOp.andi_eq_one.1 h1
  obtain ⟨hx, hC⟩ := IntOp.andi_eq_one.1 h2
  exact ⟨all_real x _ _ _ hx, all_real C _ _ _ hC, all_real U _ _ _ hU, all_real R _ _ _ hR⟩

end Cert.Finite

end
-- ==== Proof.lean ====
/-
  The kernel against its reference:  out[b, s, n] = Σ_m x[b, s, m] · W[n, m]  with  W = C · U · R  of rank 64.

  The reference builds the dense 8192 × 8192 matrix `W = (C · U) · R` and contracts `x` with it over the feature
  axis.  The kernel never builds `W`: on `x` with batch and position merged into 128 rows it contracts with `R`
  over the features, then with `U`, then, block of 2048 output features by block, with `C`, and splits the rows back.
  At ideal values the three narrowings to a 16-bit format are the identity and each matrix product is its plain sum, so

    kernel:     Σ_j (Σ_k (Σ_m x(b,s,m) · R(k,m)) · U(j,k)) · C(n,j)
    reference:  Σ_m x(b,s,m) · Σ_k (Σ_j C(n,j) · U(j,k)) · R(k,m).

  Both are the triple sum of `x(b,s,m) · R(k,m) · U(j,k) · C(n,j)`; they are equal by distributivity and a change of
  the order of summation (`Cert.Regroup`).  Distributivity fails at the infinities of the extended reals: this is
  where the precondition is used, which makes every entry of the four arrays a real number (`Cert.Finite`).

  The three frames are the generated ones (the reference's is its generated run with the result dropped); the ideal
  pass rewrote nothing, so `preserves` is trivial.
-/
import proofs.«140608_j34325378629967_1_alg».proof.Defs
import proofs.«140608_j34325378629967_1_alg».proof.Proof.Gen.Kernel
import proofs.«140608_j34325378629967_1_alg».proof.Proof.Gen.Kernel.Skeleton
import proofs.«140608_j34325378629967_1_alg».proof.Proof.Gen.Kernel.Launch
import proofs.«140608_j34325378629967_1_alg».proof.Proof.Gen.Kernel.Points
import proofs.«140608_j34325378629967_1_alg».proof.Proof.Gen.Kernel.Frame
import proofs.«140608_j34325378629967_1_alg».proof.Proof.Gen.KernelIdeal
import proofs.«140608_j34325378629967_1_alg».proof.Proof.Gen.KernelIdeal.Skeleton
import proofs.«140608_j34325378629967_1_alg».proof.Proof.Gen.KernelIdeal.Launch
import proofs.«140608_j34325378629967_1_alg».proof.Proof.Gen.KernelIdeal.Points
import proofs.«140608_j34325378629967_1_alg».proof.Proof.Gen.KernelIdeal.Frame
import proofs.«140608_j34325378629967_1_alg».proof.Proof.Gen.ReferenceIdeal
import proofs.«140608_j34325378629967_1_alg».proof.Proof.Gen.Pre_finite_inputs
import proofs.«140608_j34325378629967_1_alg».proof.Proof.Gen.ReferenceIdeal.Run
import proofs.«140608_j34325378629967_1_alg».proof.Proof.Gen.ReferenceIdeal.Read
import proofs.«140608_j34325378629967_1_alg».proof.Proof.KernelValue
import proofs.«140608_j34325378629967_1_alg».proof.Proof.RefValue
import proofs.«140608_j34325378629967_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the materialised form `Σ_m x(b,s,m) · (C·U·R)(n,m)` of the (agreeing) arguments: the
    reference by reading its three products, the kernel by the regrouping law, its entries being real numbers
    under the precondition. -/
theorem algebraic : Cert.algebraic_KernelIdeal_ReferenceIdeal := by
  intro m ρ m' ρ' hpre hagree
  refine ⟨fun c => Cert.Spec.materialised
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.KValue.run m ρ)
    obtain ⟨hx, hC, hU, hR⟩ := Cert.Finite.real_of_pre _ _ _ _ (hpre c)
    exact Cert.Spec.merged_chained_eq_materialised _ _ _ _ _ _ hx hC hU hR
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v2_eq _ _ _ _).trans (Cert.RefValue.reference_eq_materialised _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
